-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x5 : Shape := ⟨2, ![8388608, 5]⟩
abbrev S8388608x3 : Shape := ⟨2, ![8388608, 3]⟩
abbrev S_ : Shape := ⟨0, ![]⟩

class Facts : Prop where
  bcast_S_S8388608x5 : S_.BroadcastsInDim S8388608x5 (![] : Fin 0 → Fin S8388608x5.rank)
  reducesTo_S8388608x5_S_d0_1 : S8388608x5.ReducesTo [0, 1] S_
  h_S_ : 0 < S_.numel
  bcast_S_S8388608x3 : S_.BroadcastsInDim S8388608x3 (![] : Fin 0 → Fin S8388608x3.rank)
  reducesTo_S8388608x3_S_d0_1 : S8388608x3.ReducesTo [0, 1] S_

variable [Facts]

def fn {F : FTy → Type} [FloatOps F] (main_arg0 : FVec F S8388608x5 .f32) (main_arg1 : FVec F S8388608x3 .f32) : IVec S_ 1 :=
  let main_v0 : FVec F S8388608x5 .f32 := Host.absf main_arg0
  let main_cst : FVec F S_ .f32 := constant S_ .f32 0x7F800000#32
  let main_v1 : FVec F S8388608x5 .f32 := broadcastInDim S8388608x5 ![] bcast_S_S8388608x5 main_cst
  let main_v2 : IVec S8388608x5 1 := cmpf .olt main_v0 main_v1
  let main_c : IVec S_ 1 := constantI S_ 1 1#1
  let main_v3 : IVec S_ 1 := (fun x v => Host.reduce IntOp.andi x v reducesTo_S8388608x5_S_d0_1 h_S_) main_v2 main_c
  let main_v4 : FVec F S8388608x3 .f32 := Host.absf main_arg1
  let main_cst_0 : FVec F S_ .f32 := constant S_ .f32 0x7F800000#32
  let main_v5 : FVec F S8388608x3 .f32 := broadcastInDim S8388608x3 ![] bcast_S_S8388608x3 main_cst_0
  let main_v6 : IVec S8388608x3 1 := cmpf .olt main_v4 main_v5
  let main_c_1 : IVec S_ 1 := constantI S_ 1 1#1
  let main_v7 : IVec S_ 1 := (fun x v => Host.reduce IntOp.andi x v reducesTo_S8388608x3_S_d0_1 h_S_) main_v6 main_c_1
  let main_v8 : IVec S_ 1 := andi main_v3 main_v7
  main_v8
-- ==== Kernel.lean ====
abbrev S8388608x5 : Shape := ⟨2, ![8388608, 5]⟩
abbrev S8388608x3 : Shape := ⟨2, ![8388608, 3]⟩
abbrev S2x1x1 : Shape := ⟨3, ![2, 1, 1]⟩
abbrev S2048x5 : Shape := ⟨2, ![2048, 5]⟩
abbrev S2048x3 : Shape := ⟨2, ![2048, 3]⟩
abbrev S1x1x1 : Shape := ⟨3, ![1, 1, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8388608x5, .f32⟩
  | .hbm, ⟨1, _⟩ => ⟨S8388608x3, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x5, .f32⟩
  | .local _ .vmem, ⟨1, _⟩ => ⟨S2048x5, .f32⟩
  | .local _ .vmem, ⟨2, _⟩ => ⟨S2048x3, .f32⟩
  | .local _ .vmem, ⟨3, _⟩ => ⟨S2048x3, .f32⟩
  | .local _ .vmem, ⟨4, _⟩ => ⟨S1x1x1, .f32⟩
  | .local _ .vmem, ⟨5, _⟩ => ⟨S1x1x1, .f32⟩
  | _, _ => ⟨S8388608x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2048], ![false, false]⟩

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S2048x5_S2048x3_0_0 : ∀ a, (![0, 0] : Fin 2 → Nat) a + S2048x3.size a ≤ S2048x5.size a
  h_S2048x3 : 0 < S2048x3.numel
  inb_S2048x3_S2048x3_0_0 : ∀ a, (![0, 0] : Fin 2 → Nat) a + S2048x3.size a ≤ S2048x3.size a
  reduces_S2048x3_S2048 : S2048x3.Reduces [1] S2048
  shapeCasts_S2048_S2048x1 : S2048.ShapeCasts S2048x1
  inb_S2048x5_S2048x1_0_2 : ∀ a, (![0, 2] : Fin 2 → Nat) a + S2048x1.size a ≤ S2048x5.size a
  h_S2048x1 : 0 < S2048x1.numel
  inb_S2048x5_S2048x1_0_3 : ∀ a, (![0, 3] : Fin 2 → Nat) a + S2048x1.size a ≤ S2048x5.size a
  inb_S2048x3_S2048x1_0_2 : ∀ a, (![0, 2] : Fin 2 → Nat) a + S2048x1.size a ≤ S2048x3.size a
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S8388608x5.size a
  hwx0_0 : ∀ i : grid0.Coords, EltTy.bits .f32 = 32 ∨ (Rect.block (s := S8388608x5) S2048x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S8388608x3.size a
  hwx0_1 : ∀ i : grid0.Coords, EltTy.bits .f32 = 32 ∨ (Rect.block (s := S8388608x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x5 : Shape := ⟨2, ![8388608, 5]⟩
abbrev S8388608x3 : Shape := ⟨2, ![8388608, 3]⟩
abbrev S8388608x1 : Shape := ⟨2, ![8388608, 1]⟩
abbrev S8388608 : Shape := ⟨1, ![8388608]⟩
abbrev S_ : Shape := ⟨0, ![]⟩
abbrev S25165824 : Shape := ⟨1, ![25165824]⟩
abbrev S41943040 : Shape := ⟨1, ![41943040]⟩

abbrev nBuf : Space → Nat
  | .hbm => 33
  | .vmem => 0
  | .smem => 0
  | _ => 0

abbrev bufTy : (tb : Table) → Fin (tcTables nBuf tb) → BufTy
  | .hbm, ⟨0, _⟩ => ⟨S8388608x5, .f32⟩
  | .hbm, ⟨1, _⟩ => ⟨S8388608x3, .f32⟩
  | .hbm, ⟨2, _⟩ => ⟨S8388608x3, .f32⟩
  | .hbm, ⟨3, _⟩ => ⟨S8388608x3, .f32⟩
  | .hbm, ⟨4, _⟩ => ⟨S8388608x3, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608, .i1⟩
  | .hbm, ⟨12, _⟩ => ⟨S_, .f32⟩
  | .hbm, ⟨13, _⟩ => ⟨S8388608, .f32⟩
  | .hbm, ⟨14, _⟩ => ⟨S8388608, .f32⟩
  | .hbm, ⟨15, _⟩ => ⟨S8388608, .i1⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S_, .f32⟩
  | .hbm, ⟨22, _⟩ => ⟨S8388608, .f32⟩
  | .hbm, ⟨23, _⟩ => ⟨S8388608, .f32⟩
  | .hbm, ⟨24, _⟩ => ⟨S_, .f32⟩
  | .hbm, ⟨25, _⟩ => ⟨S8388608, .f32⟩
  | .hbm, ⟨26, _⟩ => ⟨S8388608, .f32⟩
  | .hbm, ⟨27, _⟩ => ⟨S25165824, .f32⟩
  | .hbm, ⟨28, _⟩ => ⟨S41943040, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8388608x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_call0_v0 : Ref sig .tc := ⟨.hbm, 22, rfl⟩
abbrev main_v17 : Ref sig .tc := ⟨.hbm, 23, rfl⟩
abbrev main_cst_2 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S8388608x5_S8388608x3_0_0 : S8388608x5.Slices ![0, 0] S8388608x3
  slices_S8388608x5_S8388608x1_0_2 : S8388608x5.Slices ![0, 2] S8388608x1
  shapeCasts_S8388608x1_S8388608 : S8388608x1.ShapeCasts S8388608
  slices_S8388608x5_S8388608x1_0_3 : S8388608x5.Slices ![0, 3] S8388608x1
  slices_S8388608x3_S8388608x1_0_2 : S8388608x3.Slices ![0, 2] S8388608x1
  bcast_S_S8388608 : S_.BroadcastsInDim S8388608 (![] : Fin 0 → Fin S8388608.rank)
  shapeCasts_S8388608x3_S25165824 : S8388608x3.ShapeCasts S25165824
  concatenates_S25165824_S8388608_S8388608_S41943040_d0 : Shape.Concatenates [S25165824, S8388608, S8388608] S41943040 0
  reducesTo_S41943040_S_d0 : S41943040.ReducesTo [0] S_
  h_S_ : 0 < S_.numel

variable [Facts₀]

class Facts : Prop extends Facts₀ where

variable [Facts]
-- ==== Proof.SumLaws.lean ====
/-
  The algebra that joins the two programs' results, over the extended reals and over abstract index types.

  Both programs end with (0 + S) / 41943040 for a sum S of the same 5·N numbers (N = 8388608 rows): per row the three
  squared differences and the range penalty counted twice. The kernel writes the doubled penalty as the product 2 · ℓ and
  sums row by row, 2048 rows at a time; the reference lays the 3·N squares and two copies of the N penalties end to end
  and sums the 5·N entries in one go. Addition of extended reals is commutative and associative (an additive
  commutative monoid, the infinities included), so every regrouping of a finite sum is an equality with no side
  condition; the one law that is not a regrouping is 2 · x = x + x, which holds at the infinities too
  (2 · ⊤ = ⊤ = ⊤ + ⊤, 2 · ⊥ = ⊥ = ⊥ + ⊥). No finiteness of the inputs is used anywhere.
-/
import Idealize.ShloMosaic.PureOps.Ideal
import Mathlib.Algebra.BigOperators.Fin

noncomputable section

namespace Cert.QuantileSums

open Idealize.ShloMosaic

/-- The pattern of the f32 `2.0` denotes the extended real 2. -/
theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast

/-- The pattern of the f32 `+0.0` denotes the extended real 0. -/
theorem ofBits_zero : Ideal.ofBits .f32 0x00000000#32 = 0 := by
  simp [Ideal.ofBits, Ideal.ieee]

/-- Doubling is adding to itself, on every extended real: at a real by the real law, at ⊤ and ⊥ both sides are
    that infinity. -/
theorem two_mul_eq_add_self (x : EReal) : (2 : EReal) * x = x + x := by
  induction x using EReal.rec with
  | bot => rw [EReal.mul_bot_of_pos (by norm_num), EReal.bot_add]
  | top => rw [EReal.mul_top_of_pos (by norm_num), EReal.top_add_top]
  | coe r =>
    have h2 : (2 : EReal) = ((2 : ℝ) : EReal) := by norm_cast
    rw [h2, ← EReal.coe_mul, ← EReal.coe_add, two_mul]

/-- The per-row regrouping: a sum of `A i + 2 · L i` is the sum of the `A i`, plus the sum of the `L i`, plus the sum
    of the `L i` again. -/
theorem sum_add_two_mul {ι : Type*} [Fintype ι] (A L : ι → EReal) :
    ∑ i, (A i + 2 * L i) = ∑ i, A i + ∑ i, L i + ∑ i, L i := by
  simp only [two_mul_eq_add_self, Finset.sum_add_distrib, add_assoc]

end Cert.QuantileSums

end
-- ==== Proof.RowSpec.lean ====
/-
  One row's contribution to the loss, and what the rows add up to.

  Row i of the two arrays P : [n, 5] and T : [n, 3] contributes its three squared differences (P i k - T i k)², k < 3,
  and a range penalty ℓ i: 1000 when P i 3 > P i 2; else 0 when P i 3 > T i 2 · c; else (P i 3 - T i 2 · c)², with c the
  f32 nearest 0.95 (the same word in both programs, so its value is never needed). The kernel adds, per row, the three
  squares and 2 · ℓ i; the reference sums the 3·n squares, the n penalties, and the n penalties again. The two totals
  are equal on the extended reals: `sum_rowAt`.
-/
import Idealize.ShloMosaic.PureOps.Ideal
import Idealize.ShloMosaic.Lib.ValueIdx
import proofs.«428945_j50491635532156_4_alg».proof.Proof.SumLaws

noncomputable section

namespace Cert.QuantileSums

open Idealize.ShloMosaic Idealize.ShloMosaic.ValueIdx

/-- The range penalty of one row, from its entries p₂, p₃ and t₂: the comparisons and the selects are the programs' own
    operations read at the ideal values. -/
def penalty (p2 p3 t2 : EReal) : EReal :=
  Scalar.select (Ideal.cmp .ogt p3 p2) (Ideal.ofBits .f32 0x447A0000#32)
    (Scalar.select (Ideal.cmp .ogt p3 (t2 * Ideal.ofBits .f32 0x3F733333#32)) (Ideal.ofBits .f32 0x00000000#32)
      ((p3 - t2 * Ideal.ofBits .f32 0x3F733333#32) * (p3 - t2 * Ideal.ofBits .f32 0x3F733333#32)))

section Rows

variable {n : Nat} (P : (⟨2, ![n, 5]⟩ : Shape).Idx → EReal) (T : (⟨2, ![n, 3]⟩ : Shape).Idx → EReal)

/-- Column k < 3 of a five-column row. -/
abbrev col5 (k : Fin 3) : Fin 5 := ⟨k.val, by have := k.isLt; omega⟩

/-- The squared difference of row i at column k < 3. -/
def mseAt (i : Fin n) (k : Fin 3) : EReal :=
  (P (ix2 i (col5 k)) - T (ix2 i k)) * (P (ix2 i (col5 k)) - T (ix2 i k))

/-- Row i's range penalty. -/
def penAt (i : Fin n) : EReal :=
  penalty (P (ix2 i (2 : Fin 5))) (P (ix2 i (3 : Fin 5))) (T (ix2 i (2 : Fin 3)))

/-- What the kernel adds for row i: the three squares and the doubled penalty. -/
def rowAt (i : Fin n) : EReal :=
  (∑ k : Fin 3, mseAt P T i k) + Ideal.ofBits .f32 0x40000000#32 * penAt P T i

/-- The rows' total is the squares' total plus the penalties' total, twice. -/
theorem sum_rowAt :
    ∑ i : Fin n, rowAt P T i = ∑ i : Fin n, ∑ k : Fin 3, mseAt P T i k + ∑ i : Fin n, penAt P T i + ∑ i : Fin n, penAt P T i := by
  unfold rowAt
  rw [ofBits_two]
  exact sum_add_two_mul _ _

end Rows

end Cert.QuantileSums

end
-- ==== Proof.KernelTile.lean ====
/-
  The kernel body's arithmetic at an index: one grid point adds its 2048 rows' contributions to what the output block
  held. The body squares the [2048, 3] difference and sums each row's three lanes, forms the [2048, 1] penalty column by
  two compares and two selects, adds twice the penalty to the row sums, sums the 2048 rows to one number and adds it to
  the block's previous entry; the shape casts between [1], [1, 1] and [1, 1, 1] move one entry and change nothing.
-/
import proofs.«428945_j50491635532156_4_alg».proof.Proof.Gen.KernelIdeal.Skeleton
import proofs.«428945_j50491635532156_4_alg».proof.Proof.RowSpec
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen Cert.QuantileSums

/-- The two casts [1] → [1, 1] → [1, 1, 1] read the one entry. -/
theorem cast_one (w : S1.Idx → EReal) (j : S1x1x1.Idx) :
    shapeCast S1x1x1 (shapeCast S1x1 w shapeCasts_S1_S1x1) shapeCasts_S1x1_S1x1x1 j = w (ix1 (0 : Fin 1)) := by
  have h0 : (j 0).val = 0 := by have := (j 0).isLt; simp at this; omega
  have h1 : (j 1).val = 0 := by have := (j 1).isLt; simp at this; omega
  have h2 : (j 2).val = 0 := by have := (j 2).isLt; simp at this; omega
  rw [shapeCast_apply _ shapeCasts_S1x1_S1x1x1 j (ix2 (0 : Fin 1) (0 : Fin 1))
      (by rw [Shape.rowMajor_val_two, Shape.rowMajor_val_three, h0, h1, h2]; rfl),
    shapeCast_apply _ shapeCasts_S1_S1x1 (ix2 (0 : Fin 1) (0 : Fin 1)) (ix1 (0 : Fin 1))
      (by rw [Shape.rowMajor_val_one, Shape.rowMajor_val_two]; rfl)]

/-- The sum over the 2048 rows of a [2048, 1] column. -/
theorem rows_sum (v : S2048x1.Idx → EReal) :
    multiReduction (F := Ideal) .add [0] S1 v 0x00000000#32 reduces_S2048x1_S1 (.inl rfl) rfl (ix1 (0 : Fin 1))
      = ∑ r : Fin 2048, v (ix2 r (0 : Fin 1)) := by
  refine (Ideal.multiReduction_add_single v 0x00000000#32 reduces_S2048x1_S1 (.inl rfl) rfl (ix1 (0 : Fin 1))).trans ?_
  refine Finset.sum_congr rfl fun r _ => congrArg v ?_
  funext a
  match a with
  | ⟨0, _⟩ => exact Fin.ext rfl
  | ⟨1, _⟩ => exact Fin.ext rfl

/-- The sum over a row's three lanes, kept as a [2048, 1] column. -/
theorem lanes_sum (u : S2048x3.Idx → EReal) (r : Fin 2048) :
    shapeCast S2048x1 (multiReduction (F := Ideal) .add [1] S2048 u 0x00000000#32 reduces_S2048x3_S2048 (.inl rfl) rfl)
        shapeCasts_S2048_S2048x1 (ix2 r (0 : Fin 1))
      = ∑ k : Fin 3, u (ix2 r k) := by
  rw [shapeCast_apply _ shapeCasts_S2048_S2048x1 (ix2 r (0 : Fin 1)) (ix1 r)
      (by rw [Shape.rowMajor_val_one, Shape.rowMajor_val_two]; show r.val = r.val * 1 + 0; omega)]
  refine (Ideal.multiReduction_add_single u 0x00000000#32 reduces_S2048x3_S2048 (.inl rfl) rfl (ix1 r)).trans ?_
  refine Finset.sum_congr rfl fun k _ => congrArg u ?_
  funext a
  match a with
  | ⟨0, _⟩ => exact Fin.ext rfl
  | ⟨1, _⟩ => exact Fin.ext rfl

/-- The body's stored value at an index: the block's previous entry plus, over the 2048 rows, the three squared
    differences and twice the penalty. -/
theorem pay2_apply (v3 v4 : Vec Ideal S2048x3 .f32) (v9 v10 v11 : Vec Ideal S2048x1 .f32) (v27 : Vec Ideal S1x1x1 .f32)
    (j : S1x1x1.Idx) :
    k0_pay2 (F := Ideal) v3 v4 v9 v10 v11 v27 j
      = v27 j + ∑ r : Fin 2048, ((∑ k : Fin 3, (v3 (ix2 r k) - v4 (ix2 r k)) * (v3 (ix2 r k) - v4 (ix2 r k)))
          + Ideal.ofBits .f32 0x40000000#32 * penalty (v9 (ix2 r (0 : Fin 1))) (v10 (ix2 r (0 : Fin 1))) (v11 (ix2 r (0 : Fin 1)))) := by
  unfold k0_pay2
  refine congrArg₂ (fun a b : EReal => a + b) (congrFun (shapeCast_self v27 _) j) ?_
  refine (cast_one _ j).trans ?_
  refine (rows_sum _).trans ?_
  refine Finset.sum_congr rfl fun r _ => ?_
  refine congrArg₂ (fun a b : EReal => a + b) (lanes_sum _ r) rfl

end Cert.KernelIdeal.Tile

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.KernelValue.lean ====
/-
  What the idealized kernel's run leaves in its result, as a function of the two argument arrays.

  The grid has 4096 points; point t stages rows 2048·t … 2048·t + 2047 of both arrays and adds their contributions to a
  one-entry output block that is reset at the points t ≡ 0 (mod 2048) and written back at the points t ≡ 2047 (mod 2048),
  to entry t / 2048 of a [2, 1, 1] array. So entry q of that array ends at 0 + the sum of the contributions of points
  2048·q … 2048·q + 2047, by induction along each run of 2048 points (the fold over a run, unrolled). After the region the
  program sums the two entries from 0 and divides by 41943040.
-/
import proofs.«428945_j50491635532156_4_alg».proof.Defs
import proofs.«428945_j50491635532156_4_alg».proof.Proof.Gen.KernelIdeal.Frame
import proofs.«428945_j50491635532156_4_alg».proof.Proof.KernelTile
import proofs.«428945_j50491635532156_4_alg».proof.Proof.LibIdxSums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.QuantileSums

/-! ## What each control case leaves in the output block, at any float values -/

section Pieces

variable {F : FTy → Type} [FloatOps F]

theorem hz3 : (![0, 0, 0] : Fin 3 → Nat) = fun _ => 0 := funext fun a => by fin_cases a <;> rfl

/-- The value the body stores, from its two input blocks and the contents `xo` it reads back from the output block:
    the body's arithmetic over the five sub-blocks it loads (columns 0–2 of both inputs; columns 2 and 3 of the first
    and column 2 of the second). -/
def bodyVal (x0 : Vec F S2048x5 .f32) (x1 : Vec F S2048x3 .f32) (xo : Vec F S1x1x1 .f32) : Vec F S1x1x1 .f32 :=
  k0_pay2 (View.ld x0 (Rect.unit (s := S2048x5) ![0, 0] S2048x3.size inb_S2048x5_S2048x3_0_0))
    (View.ld x1 (Rect.unit (s := S2048x3) ![0, 0] S2048x3.size inb_S2048x3_S2048x3_0_0))
    (View.ld x0 (Rect.unit (s := S2048x5) ![0, 2] S2048x1.size inb_S2048x5_S2048x1_0_2))
    (View.ld x0 (Rect.unit (s := S2048x5) ![0, 3] S2048x1.size inb_S2048x5_S2048x1_0_3))
    (View.ld x1 (Rect.unit (s := S2048x3) ![0, 2] S2048x1.size inb_S2048x3_S2048x1_0_2)) xo

/-- A point that does not reset: the one store covers the block, with the body's value over what the block held. -/
theorem out_B (c : Dev nD) (i : grid0.Coords) (a2 : Memref sig .tc .vmem S2048x5 .f32) (h2 : a2.IsWhole)
    (a3 : Memref sig .tc .vmem S2048x3 .f32) (h3 : a3.IsWhole) (a4 : Memref sig .tc .vmem S1x1x1 .f32) (h4 : a4.IsWhole)
    (hc : ¬cond0_0 i) (x0 : Vec F S2048x5 .f32) (x1 : Vec F S2048x3 .f32) (xo : Vec F S1x1x1 .f32) :
    out0_B_2 c i a2 h2 a3 h3 a4 h4 hc x0 x1 xo = bodyVal x0 x1 xo := by
  unfold out0_B_2 bodyVal
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x1x1) hz3]

/-- A point that resets: the zero block is stored first and read back by the update, so the block ends with the
    body's value over the zero block. -/
theorem out_A (c : Dev nD) (i : grid0.Coords) (a2 : Memref sig .tc .vmem S2048x5 .f32) (h2 : a2.IsWhole)
    (a3 : Memref sig .tc .vmem S2048x3 .f32) (h3 : a3.IsWhole) (a4 : Memref sig .tc .vmem S1x1x1 .f32) (h4 : a4.IsWhole)
    (hc : cond0_0 i) (x0 : Vec F S2048x5 .f32) (x1 : Vec F S2048x3 .f32) :
    out0_A_2 c i a2 h2 a3 h3 a4 h4 hc x0 x1 = bodyVal x0 x1 k0_pay1 := by
  unfold out0_A_2 bodyVal
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S1x1x1) hz3]

end Pieces

/-! ## The body's value at the ideal instance: the previous entry plus the block's 2048 rows -/

/-- Reading the loaded sub-blocks back at the blocks' own entries: the body's value is the previous entry plus the sum,
    over the block's rows, of each row's contribution. -/
theorem bodyVal_apply (x0 : Vec Ideal S2048x5 .f32) (x1 : Vec Ideal S2048x3 .f32) (xo : Vec Ideal S1x1x1 .f32)
    (j : S1x1x1.Idx) :
    bodyVal (F := Ideal) x0 x1 xo j = xo j + ∑ r : Fin 2048, rowAt (n := 2048) x0 x1 r := by
  unfold bodyVal
  refine (Tile.pay2_apply _ _ _ _ _ xo j).trans ?_
  refine congrArg (fun s : EReal => xo j + s) (Finset.sum_congr rfl fun r _ => ?_)
  have e0 : ∀ k : Fin 3, View.ld x0 (Rect.unit (s := S2048x5) ![0, 0] S2048x3.size inb_S2048x5_S2048x3_0_0) (ix2 r k)
      = x0 (ix2 r (col5 k)) := fun k =>
    congrArg x0 (Shape.idx_ext₂ (by show 0 + 1 * r.val = r.val; omega) (by show 0 + 1 * k.val = k.val; omega))
  have e1 : ∀ k : Fin 3, View.ld x1 (Rect.unit (s := S2048x3) ![0, 0] S2048x3.size inb_S2048x3_S2048x3_0_0) (ix2 r k)
      = x1 (ix2 r k) := fun k =>
    congrArg x1 (Shape.idx_ext₂ (by show 0 + 1 * r.val = r.val; omega) (by show 0 + 1 * k.val = k.val; omega))
  have e2 : View.ld x0 (Rect.unit (s := S2048x5) ![0, 2] S2048x1.size inb_S2048x5_S2048x1_0_2) (ix2 r (0 : Fin 1))
      = x0 (ix2 r (2 : Fin 5)) :=
    congrArg x0 (Shape.idx_ext₂ (by show 0 + 1 * r.val = r.val; omega) (by show 2 + 1 * 0 = 2; rfl))
  have e3 : View.ld x0 (Rect.unit (s := S2048x5) ![0, 3] S2048x1.size inb_S2048x5_S2048x1_0_3) (ix2 r (0 : Fin 1))
      = x0 (ix2 r (3 : Fin 5)) :=
    congrArg x0 (Shape.idx_ext₂ (by show 0 + 1 * r.val = r.val; omega) (by show 3 + 1 * 0 = 3; rfl))
  have e4 : View.ld x1 (Rect.unit (s := S2048x3) ![0, 2] S2048x1.size inb_S2048x3_S2048x1_0_2) (ix2 r (0 : Fin 1))
      = x1 (ix2 r (2 : Fin 3)) :=
    congrArg x1 (Shape.idx_ext₂ (by show 0 + 1 * r.val = r.val; omega) (by show 2 + 1 * 0 = 2; rfl))
  unfold rowAt mseAt penAt
  rw [e2, e3, e4]
  simp only [e0, e1]

/-! ## The blocks are rows of the argument arrays -/

section Run

variable (m : (ℓ : Loc nD τ sig) → Buf (Elt Ideal) ℓ) (ρ : Dev nD → PrngReg)

/-- The two argument arrays, as the region finds them. -/
abbrev parr (c : Dev nD) : (⟨2, ![8388608, 5]⟩ : Shape).Idx → EReal := m ((c : Thread nD τ).loc main_arg0)
abbrev tarr (c : Dev nD) : (⟨2, ![8388608, 3]⟩ : Shape).Idx → EReal := m ((c : Thread nD τ).loc main_arg1)

/-- The two input blocks of point `t`. -/
abbrev xblk0 (c : Dev nD) (t : Fin cfg0.N) : Vec Ideal S2048x5 .f32 := iblk m c 0 t
abbrev xblk1 (c : Dev nD) (t : Fin cfg0.N) : Vec Ideal S2048x3 .f32 := iblk m c 1 t

/-- The printed index maps, decided over the grid: point `t` reads row block `t` of both inputs and writes entry
    `t / 2048` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 2048 ∧ win0_2.index t (1 : Fin 3) = 0 ∧ win0_2.index t (2 : Fin 3) = 0 :=
  (by decide +kernel : ∀ t : Fin grid0.N, _)

/-- Row `r` of point `t`'s blocks is row `2048·t + r` of the arrays. -/
def rowIx (t : Fin cfg0.N) (r : Fin 2048) : Fin 8388608 :=
  ⟨t.val * 2048 + r.val, by
    have hN : t.val < 4096 := lt_of_lt_of_eq t.isLt (show cfg0.N = 4096 from N_0)
    have := r.isLt; omega⟩

theorem xblk0_apply (c : Dev nD) (t : Fin cfg0.N) (r : Fin 2048) (a : Fin 5) :
    xblk0 m c t (ix2 r a) = parr m c (ix2 (rowIx t r) a) := by
  show iblk m c 0 t (ix2 r a) = _
  unfold iblk
  rw [View.read_apply]
  show m ((c : Thread nD τ).loc main_arg0) _ = m ((c : Thread nD τ).loc main_arg0) _
  congr 1
  funext d
  apply Fin.ext
  match d with
  | ⟨0, _⟩ => show win0_0.index t (0 : Fin 2) * 2048 + 1 * r.val = t.val * 2048 + r.val; rw [(idx_facts t).1]; omega
  | ⟨1, _⟩ => show win0_0.index t (1 : Fin 2) * 5 + 1 * a.val = a.val; rw [(idx_facts t).2.1]; omega

theorem xblk1_apply (c : Dev nD) (t : Fin cfg0.N) (r : Fin 2048) (a : Fin 3) :
    xblk1 m c t (ix2 r a) = tarr m c (ix2 (rowIx t r) a) := by
  show iblk m c 1 t (ix2 r a) = _
  unfold iblk
  rw [View.read_apply]
  show m ((c : Thread nD τ).loc main_arg1) _ = m ((c : Thread nD τ).loc main_arg1) _
  congr 1
  funext d
  apply Fin.ext
  match d with
  | ⟨0, _⟩ => show win0_1.index t (0 : Fin 2) * 2048 + 1 * r.val = t.val * 2048 + r.val; rw [(idx_facts t).2.2.1]; omega
  | ⟨1, _⟩ => show win0_1.index t (1 : Fin 2) * 3 + 1 * a.val = a.val; rw [(idx_facts t).2.2.2.1]; omega

/-- A block row's contribution is the array row's. -/
theorem row_blk (c : Dev nD) (t : Fin cfg0.N) (r : Fin 2048) :
    rowAt (n := 2048) (xblk0 m c t) (xblk1 m c t) r = rowAt (parr m c) (tarr m c) (rowIx t r) := by
  unfold rowAt mseAt penAt
  simp only [xblk0_apply, xblk1_apply]

/-! ## The accumulation along a run of 2048 points -/

/-- Point `t`'s addend: its 2048 rows' contributions. -/
def tile (c : Dev nD) (t : Fin cfg0.N) : EReal := ∑ r : Fin 2048, rowAt (parr m c) (tarr m c) (rowIx t r)

/-- The same at any natural (zero past the grid, where it is never used). -/
def tileN (c : Dev nD) (n : ℕ) : EReal := if h : n < cfg0.N then tile m c ⟨n, h⟩ else 0

/-- At the first point of a run the block is left at 0 plus the point's addend. -/
theorem outsAt_reset (c : Dev nD) (n : ℕ) (h : n < cfg0.N) (h0 : n % 2048 = 0) :
    outsAt0 m c n h = fun _ => 0 + tileN m c n := by
  refine (outsAt0_A m c ⟨n, h⟩ h0).trans ((out_A c (grid0.coords ⟨n, h⟩) (ms0_0 ⟨n, h⟩) (hs0_0 ⟨n, h⟩) (ms0_1 ⟨n, h⟩)
    (hs0_1 ⟨n, h⟩) (ms0_2 ⟨n, h⟩) (hs0_2 ⟨n, h⟩) ((hcond0_0 ⟨n, h⟩).mpr h0) (xblk0 m c ⟨n, h⟩) (xblk1 m c ⟨n, h⟩)).trans ?_)
  funext j
  refine (bodyVal_apply (xblk0 m c ⟨n, h⟩) (xblk1 m c ⟨n, h⟩) (k0_pay1 (F := Ideal)) j).trans ?_
  refine congrArg₂ (fun a b : EReal => a + b) ofBits_zero ?_
  unfold tileN tile
  rw [dif_pos h]
  exact Finset.sum_congr rfl fun r _ => row_blk m c ⟨n, h⟩ r

/-- At every other point the block is left at what the point before left plus the point's addend. -/
theorem outsAt_step (c : Dev nD) (n : ℕ) (h : n + 1 < cfg0.N) (h0 : ¬(n + 1) % 2048 = 0) :
    outsAt0 m c (n + 1) h = fun j => outsAt0 m c n (Nat.lt_of_succ_lt h) j + tileN m c (n + 1) := by
  refine (outsAt0_B m c ⟨n + 1, h⟩ h0).trans ((out_B c (grid0.coords ⟨n + 1, h⟩) (ms0_0 ⟨n + 1, h⟩) (hs0_0 ⟨n + 1, h⟩)
    (ms0_1 ⟨n + 1, h⟩) (hs0_1 ⟨n + 1, h⟩) (ms0_2 ⟨n + 1, h⟩) (hs0_2 ⟨n + 1, h⟩) (fun hh => h0 ((hcond0_0 ⟨n + 1, h⟩).mp hh))
    (xblk0 m c ⟨n + 1, h⟩) (xblk1 m c ⟨n + 1, h⟩) (outsAt0 m c n (Nat.lt_of_succ_lt h))).trans ?_)
  funext j
  refine (bodyVal_apply (xblk0 m c ⟨n + 1, h⟩) (xblk1 m c ⟨n + 1, h⟩) (outsAt0 m c n (Nat.lt_of_succ_lt h)) j).trans ?_
  refine congrArg (fun s : EReal => outsAt0 m c n (Nat.lt_of_succ_lt h) j + s) ?_
  unfold tileN tile
  rw [dif_pos h]
  exact Finset.sum_congr rfl fun r _ => row_blk m c ⟨n + 1, h⟩ r

/-- So after point `t` the block holds 0 plus the addends of its run's points up to `t`. -/
theorem outsAt_closed (c : Dev nD) (t : Fin cfg0.N) (j : S1x1x1.Idx) :
    outsAt0 m c t.val t.isLt j = 0 + ∑ s ∈ Finset.range (t.val % 2048 + 1), tileN m c (2048 * (t.val / 2048) + s) := by
  have h' : 2048 * (t.val / 2048) + t.val % 2048 < cfg0.N := by rw [Nat.div_add_mod]; exact t.isLt
  have e : outsAt0 m c t.val t.isLt
      = Pipeline.accAt (fun n _ => fun _ => 0 + tileN m c n) (fun n _ acc => fun j => acc j + tileN m c n)
          (2048 * (t.val / 2048)) (t.val % 2048) h' :=
    Pipeline.eq_accAt_of_mod (fun n h => outsAt0 m c n h) 2048 (fun n _ => fun _ => 0 + tileN m c n)
      (fun n _ acc => fun j => acc j + tileN m c n) (fun n h h0 => outsAt_reset m c n h h0)
      (fun n h h0 => outsAt_step m c n h h0) (by norm_num) t.val t.isLt h'
  rw [e]
  exact Pipeline.accAt_add_apply (fun n _ => fun _ => 0 + tileN m c n) (fun n _ acc => fun j => acc j + tileN m c n)
    (fun _ => 0) (fun n _ => tileN m c n) (2048 * (t.val / 2048)) (t.val % 2048) (fun _ _ => rfl)
    (fun _ _ _ _ _ _ => rfl) (t.val % 2048) le_rfl h' j

/-! ## The [2, 1, 1] array after the region -/

/-- Entry `q`: 0 plus the addends of points 2048·q … 2048·q + 2047. -/
def result (c : Dev nD) : S2x1x1.Idx → EReal :=
  fun i => (0 : EReal) + ∑ s ∈ Finset.range 2048, tileN m c (2048 * (i 0).val + s)

/-- What a point that writes back writes: the entry of `result` its block is. -/
theorem flushed_eq (c : Dev nD) (t : Fin cfg0.N) (hf : (cfg0.win 2).flush t = true) :
    (dats m 0 c).flushed 2 t = ((cfg0.win 2).blk t).view.read (Elt Ideal) (result m c) := by
  have hmod : t.val % 2048 = 2047 := (flush0_2 t).mp hf
  show (cfg0.win 2).cut (grid0.coords t) ((dats m 0 c).after 2 t) = _
  rw [after0_2]
  funext y
  show outsAt0 m c t.val t.isLt y = result m c (((cfg0.win 2).blk t).view.emb y)
  rw [outsAt_closed m c t y, hmod]
  have h0 : ((((cfg0.win 2).blk t).view.emb y) 0).val = t.val / 2048 := by
    show win0_2.index t (0 : Fin 3) * 1 + 1 * (y 0).val = _
    have hy : (y 0).val < 1 := (y 0).isLt
    rw [(idx_facts t).2.2.2.2.1]; omega
  show _ = (0 : EReal) + ∑ s ∈ Finset.range 2048, tileN m c (2048 * ((((cfg0.win 2).blk t).view.emb y) 0).val + s)
  rw [h0]

/-- Every entry is written back, by the last point of its run. -/
theorem covered (c : Dev nD) (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 4096 := N_0
  have hb : 2048 * (i 0).val + 2047 < cfg0.N := by rw [hN]; omega
  refine ⟨⟨2048 * (i 0).val + 2047, hb⟩, (flush0_2 _).mpr (by show (2048 * (i 0).val + 2047) % 2048 = 2047; omega), ?_⟩
  show i ∈ ((View.whole main_v0).slice (win0_2.rect ⟨2048 * (i 0).val + 2047, hb⟩)).set
  rw [View.set_slice_whole, Rect.mem_set_unit]
  obtain ⟨-, -, -, -, e0, e1, e2⟩ := idx_facts ⟨2048 * (i 0).val + 2047, hb⟩
  have e0' : win0_2.index ⟨2048 * (i 0).val + 2047, hb⟩ (0 : Fin 3) = (2048 * (i 0).val + 2047) / 2048 := e0
  intro a
  match a with
  | ⟨0, _⟩ =>
    show win0_2.index ⟨2048 * (i 0).val + 2047, hb⟩ (0 : Fin 3) * 1 ≤ (i 0).val
      ∧ (i 0).val < win0_2.index ⟨2048 * (i 0).val + 2047, hb⟩ (0 : Fin 3) * 1 + 1
    rw [e0']; omega
  | ⟨1, _⟩ =>
    show win0_2.index ⟨2048 * (i 0).val + 2047, hb⟩ (1 : Fin 3) * 1 ≤ (i 1).val
      ∧ (i 1).val < win0_2.index ⟨2048 * (i 0).val + 2047, hb⟩ (1 : Fin 3) * 1 + 1
    rw [e1]; omega
  | ⟨2, _⟩ =>
    show win0_2.index ⟨2048 * (i 0).val + 2047, hb⟩ (2 : Fin 3) * 1 ≤ (i 2).val
      ∧ (i 2).val < win0_2.index ⟨2048 * (i 0).val + 2047, hb⟩ (2 : Fin 3) * 1 + 1
    rw [e2]; omega

/-- So the array ends at `result`. -/
theorem final_out (c : Dev nD) : (dats m 0 c).arrAt 2 cfg0.N = result m c :=
  (dats m 0 c).arrAt_eq_of_cover 2 (result m c) (flushed_eq m c) (covered c)

end Run

end Cert.KernelIdeal.RunValue

end
-- ==== Proof.KernelRun.lean ====
/-
  The idealized kernel's run, read: after the region the program sums the two entries of the [2, 1, 1] array from 0 and
  divides by the f32 41943040; the two entries together are the contributions of all 4096 points, that is of all
  8388608 rows, each met once.
-/
import proofs.«428945_j50491635532156_4_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.QuantileSums Cert.IdxSums

variable (m : (ℓ : Loc nD τ sig) → Buf (Elt Ideal) ℓ) (ρ : Dev nD → PrngReg)

/-- The program's result: the two operations after the region, over the array the region leaves. -/
def kres (c : Dev nD) : Buf (Elt Ideal) ((c : Thread nD τ).loc main_v2) :=
  Host.divf (Host.reduceAdd (result m c) (constant (F := Ideal) S_ .f32 0x00000000#32) reducesTo_S2x1x1_S_d0_1_2 h_S_)
    (constant (F := Ideal) S_ .f32 0x4C200000#32)

/-- What the operations after the region leave in the result buffer: they read the region's array, which ends at
    `result`. -/
theorem tail_eq (c : Dev nD) : Pipeline.afterTail₀ cfgs (dats m) 0 (V0 m) [hostOps1] c main_v2 = kres m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = result m c :=
    (Pipeline.withArrays_arr spec0 launch0.win.arr_inj c _ _ 2).trans (final_out m c)
  exact congrArg (fun x : (⟨S2x1x1, .f32⟩ : BufTy).Contents (Elt Ideal) =>
    Host.divf (Host.reduceAdd x (constant (F := Ideal) S_ .f32 0x00000000#32) reducesTo_S2x1x1_S_d0_1_2 h_S_)
      (constant (F := Ideal) S_ .f32 0x4C200000#32)) e

/-- The run, read: the result at `kres`, the arguments unchanged. -/
theorem run : θ_run defs (onTc (τ := τ) (main (F := Ideal))) ⟨m, fun _ => 0, ρ⟩ fun r => ∀ c : Dev nD,
      r.2.mem ((c : Thread nD τ).loc main_v2) = kres m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The two entries together: every point's addend once, that is every row's contribution once. -/
theorem sum_result (c : Dev nD) :
    ∑ i : S2x1x1.Idx, result m c i = ∑ i : Fin 8388608, rowAt (parr m c) (tarr m c) i := by
  rw [sum_idx3u]
  symm
  refine (sum_fin_mul 4096 2048 (fun i => rowAt (parr m c) (tarr m c) i)).trans ?_
  refine (sum_fin_mul 2 2048 (fun a => ∑ b : Fin 2048, rowAt (parr m c) (tarr m c)
    (⟨a.val * 2048 + b.val, by have := a.isLt; have := b.isLt; omega⟩ : Fin 8388608))).trans ?_
  refine Finset.sum_congr rfl fun q _ => ?_
  show _ = (0 : EReal) + ∑ s ∈ Finset.range 2048, tileN m c (2048 * q.val + s)
  rw [zero_add, Finset.sum_range]
  refine Finset.sum_congr rfl fun s _ => ?_
  have hq := q.isLt
  have hs := s.isLt
  have hlt : 2048 * q.val + s.val < cfg0.N := by rw [show cfg0.N = 4096 from N_0]; omega
  unfold tileN
  rw [dif_pos hlt]
  unfold tile
  refine Finset.sum_congr rfl fun r _ => congrArg (rowAt (parr m c) (tarr m c)) (Fin.ext ?_)
  show (q.val * 2048 + s.val) * 2048 + r.val = (2048 * q.val + s.val) * 2048 + r.val
  omega

/-- The result at its one index: 0 plus every row's contribution, divided by the f32 41943040. -/
theorem kres_apply (c : Dev nD) (j : S_.Idx) :
    kres m c j = Ideal.div (Ideal.ofBits .f32 0x00000000#32 + ∑ i : Fin 8388608, rowAt (parr m c) (tarr m c) i)
      (Ideal.ofBits .f32 0x4C200000#32) := by
  have e : Host.reduceAdd (F := Ideal) (result m c) (constant (F := Ideal) S_ .f32 0x00000000#32)
        reducesTo_S2x1x1_S_d0_1_2 h_S_ j
      = Ideal.ofBits .f32 0x00000000#32 + ∑ i : S2x1x1.Idx, result m c i := by
    simp only [Host.reduceAdd, Ideal.hostReduceAdd_def]
    exact Ideal.hostReduceAdd_total reducesTo_S2x1x1_S_d0_1_2 (fun b => b.elim0) (result m c) _ j
  exact congrArg (fun s : EReal => Ideal.div s (Ideal.ofBits .f32 0x4C200000#32))
    (e.trans (congrArg (fun s : EReal => Ideal.ofBits .f32 0x00000000#32 + s) (sum_result m c)))

end Cert.KernelIdeal.RunValue

end
-- ==== Proof.RefValue.lean ====
/-
  What the reference computes, at the ideal instance, as a function of the two argument arrays.

  The reference squares the [N, 3] difference of the first three columns, flattens it row-major to 3·N entries (entry k is
  row k / 3, column k % 3), builds the N range penalties from columns 2 and 3 of the first array and column 2 of the
  second, lays the squares and two copies of the penalties end to end, sums the 5·N entries from 0 and divides by
  41943040. Read stage by stage: the sum of the long list is the squares' sum plus the penalties' sum twice.
-/
import proofs.«428945_j50491635532156_4_alg».proof.Defs
import proofs.«428945_j50491635532156_4_alg».proof.Proof.Gen.ReferenceIdeal.Run
import proofs.«428945_j50491635532156_4_alg».proof.Proof.Gen.ReferenceIdeal.Read
import proofs.«428945_j50491635532156_4_alg».proof.Proof.RowSpec
import proofs.«428945_j50491635532156_4_alg».proof.Proof.LibIdxSums

noncomputable section

namespace Cert.ReferenceIdeal.RefValue

open Idealize.ShloMosaic Idealize.ShloMosaic.ValueIdx Cert.ReferenceIdeal Cert.ReferenceIdeal.Gen Cert.ReferenceIdeal.Read
  Cert.QuantileSums Cert.IdxSums

variable (P : S8388608x5.Idx → EReal) (T : S8388608x3.Idx → EReal)

/-- Entry k of the flattened squares is the squared difference of row k / 3 at column k % 3. -/
theorem squares_apply (k : Fin 25165824) :
    val_main_v19 (F := Ideal) P T (ix1 k)
      = mseAt P T (⟨k.val / 3, by have := k.isLt; omega⟩ : Fin 8388608) (⟨k.val % 3, by omega⟩ : Fin 3) := by
  have hk : idx_main_v19 (ix1 k) = ix2 (⟨k.val / 3, by have := k.isLt; omega⟩ : Fin 8388608) (⟨k.val % 3, by omega⟩ : Fin 3) :=
    Shape.idx_ext₂ rfl rfl
  have h0 : idx_main_v0 (ix2 (⟨k.val / 3, by have := k.isLt; omega⟩ : Fin 8388608) (⟨k.val % 3, by omega⟩ : Fin 3))
      = ix2 (⟨k.val / 3, by have := k.isLt; omega⟩ : Fin 8388608) (col5 (⟨k.val % 3, by omega⟩ : Fin 3)) :=
    Shape.idx_ext₂ rfl rfl
  rw [val_main_v19_apply, val_main_v2_apply, val_main_v1_apply, val_main_v0_apply, hk, h0]
  rfl

/-- Entry i of the penalty vector is row i's penalty. -/
theorem penalties_apply (i : Fin 8388608) : val_main_v18 (F := Ideal) P T (ix1 i) = penAt P T i := by
  have e3 : idx_main_v5 (idx_main_v6 (ix1 i)) = ix2 i (3 : Fin 5) :=
    Shape.idx_ext₂ (Nat.div_one _) rfl
  have e2 : idx_main_v3 (idx_main_v4 (ix1 i)) = ix2 i (2 : Fin 5) :=
    Shape.idx_ext₂ (Nat.div_one _) rfl
  have t2 : idx_main_v7 (idx_main_v8 (ix1 i)) = ix2 i (2 : Fin 3) :=
    Shape.idx_ext₂ (Nat.div_one _) rfl
  simp only [val_main_v18_apply, val_main_v9_apply, val_main_call1_v0_apply, val_main_cst_2_apply, val_main_v17_apply,
    val_main_v12_apply, val_main_call0_v0_apply, val_main_cst_1_apply, val_main_v16_apply, val_main_v15_apply,
    val_main_v14_apply, val_main_v13_apply, val_main_cst_0_apply, val_main_v11_apply, val_main_v10_apply,
    val_main_cst_apply, val_main_v8_apply, val_main_v7_apply, val_main_v6_apply, val_main_v5_apply, val_main_v4_apply,
    val_main_v3_apply]
  rw [e3, e2, t2]
  rfl

/-- The flattened squares' sum is the double sum over rows and columns. -/
theorem sum_squares :
    ∑ k : Fin 25165824, mseAt P T (⟨k.val / 3, by have := k.isLt; omega⟩ : Fin 8388608) (⟨k.val % 3, by omega⟩ : Fin 3)
      = ∑ i : Fin 8388608, ∑ kk : Fin 3, mseAt P T i kk := by
  refine (sum_fin_mul 8388608 3
    (fun k => mseAt P T (⟨k.val / 3, by have := k.isLt; omega⟩ : Fin 8388608) (⟨k.val % 3, by omega⟩ : Fin 3))).trans ?_
  refine Finset.sum_congr rfl fun a _ => Finset.sum_congr rfl fun b _ => ?_
  have hb := b.isLt
  exact congrArg₂ (mseAt P T) (Fin.ext (by show (a.val * 3 + b.val) / 3 = a.val; omega))
    (Fin.ext (by show (a.val * 3 + b.val) % 3 = b.val; omega))

/-- The long list's sum: the squares' sum, the penalties' sum, and the penalties' sum again. -/
theorem sum_list :
    ∑ j : S41943040.Idx, val_main_v20 (F := Ideal) P T j
      = ∑ i : Fin 8388608, ∑ kk : Fin 3, mseAt P T i kk + ∑ i : Fin 8388608, penAt P T i + ∑ i : Fin 8388608, penAt P T i := by
  unfold val_main_v20
  refine (sum_concat3 25165824 8388608 8388608 (val_main_v19 (F := Ideal) P T) (val_main_v18 (F := Ideal) P T)
    (val_main_v18 (F := Ideal) P T) concatenates_S25165824_S8388608_S8388608_S41943040_d0).trans ?_
  rw [sum_idx1, sum_idx1 (val_main_v18 (F := Ideal) P T)]
  simp only [squares_apply, penalties_apply]
  rw [sum_squares]

/-- The reference's result: 0 plus that sum, divided by the f32 41943040. -/
theorem result_apply (j : S_.Idx) :
    val_main_v22 (F := Ideal) P T j
      = Ideal.div (Ideal.ofBits .f32 0x00000000#32
          + (∑ i : Fin 8388608, ∑ kk : Fin 3, mseAt P T i kk + ∑ i : Fin 8388608, penAt P T i + ∑ i : Fin 8388608, penAt P T i))
        (Ideal.ofBits .f32 0x4C200000#32) := by
  rw [val_main_v22_apply, val_main_v21_apply, sum_list]
  rfl

end Cert.ReferenceIdeal.RefValue

end
-- ==== Proof.lean ====
/-
  The certificate of a quantile-loss kernel against its jnp reference.

  Over N = 8388608 rows of preds : [N, 5] and target : [N, 3], both programs return (0 + S) / 41943040, where S adds, for
  every row, the three squared differences of the first three columns and, twice, a range penalty computed from columns
  2 and 3 of preds and column 2 of target. The kernel walks a (2, 2048) grid, 2048 rows a point, accumulating per row
  the squares and 2 · penalty into a one-entry block per value of the first grid axis, and the host adds the two entries;
  the reference lays the 3·N squares and two copies of the N penalties end to end and sums once. On the extended reals a
  finite sum may be regrouped freely and 2 · x = x + x holds at the infinities too, so the two results are equal with no
  use of the inputs' finiteness. The ideal pass rewrote nothing, so the idealized kernel is the kernel's own text.

  The three frames are the generated ones (the reference's is its generated run with the result dropped). The value side:
  Proof/KernelValue.lean and Proof/KernelRun.lean read the kernel's run, Proof/RefValue.lean the reference's,
  Proof/RowSpec.lean states one row's contribution and the totals' equality, Proof/SumLaws.lean and Proof/LibIdxSums.lean
  hold the regrouping lemmas.
-/
import proofs.«428945_j50491635532156_4_alg».proof.Defs
import proofs.«428945_j50491635532156_4_alg».proof.Proof.Gen.Kernel
import proofs.«428945_j50491635532156_4_alg».proof.Proof.Gen.Kernel.Skeleton
import proofs.«428945_j50491635532156_4_alg».proof.Proof.Gen.Kernel.Launch
import proofs.«428945_j50491635532156_4_alg».proof.Proof.Gen.Kernel.Points
import proofs.«428945_j50491635532156_4_alg».proof.Proof.Gen.Kernel.Frame
import proofs.«428945_j50491635532156_4_alg».proof.Proof.Gen.KernelIdeal
import proofs.«428945_j50491635532156_4_alg».proof.Proof.Gen.KernelIdeal.Skeleton
import proofs.«428945_j50491635532156_4_alg».proof.Proof.Gen.KernelIdeal.Launch
import proofs.«428945_j50491635532156_4_alg».proof.Proof.Gen.KernelIdeal.Points
import proofs.«428945_j50491635532156_4_alg».proof.Proof.Gen.KernelIdeal.Frame
import proofs.«428945_j50491635532156_4_alg».proof.Proof.Gen.ReferenceIdeal
import proofs.«428945_j50491635532156_4_alg».proof.Proof.Gen.ReferenceIdeal.Run
import proofs.«428945_j50491635532156_4_alg».proof.Proof.Gen.ReferenceIdeal.Read
import proofs.«428945_j50491635532156_4_alg».proof.Proof.Gen.Pre_finite_inputs
import proofs.«428945_j50491635532156_4_alg».proof.Proof.KernelRun
import proofs.«428945_j50491635532156_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories that agree on the arguments, both programs end at (0 + S) / 41943040: the
    kernel's S row by row with the penalty doubled, the reference's as squares, penalties, penalties; one number by
    `sum_rowAt`. -/
theorem algebraic : Cert.algebraic_KernelIdeal_ReferenceIdeal := by
  intro m ρ m' ρ' _ hagree
  refine ⟨fun c => Cert.KernelIdeal.RunValue.kres m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  funext j
  show _ = Cert.KernelIdeal.RunValue.kres m c j
  rw [Cert.ReferenceIdeal.RefValue.result_apply, Cert.KernelIdeal.RunValue.kres_apply, Cert.QuantileSums.sum_rowAt]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
